-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S12288x128 : Shape := ⟨2, ![12288, 128]⟩
abbrev S_ : Shape := ⟨0, ![]⟩

class Facts : Prop where
  bcast_S_S12288x128 : S_.BroadcastsInDim S12288x128 (![] : Fin 0 → Fin S12288x128.rank)
  reducesTo_S12288x128_S_d0_1 : S12288x128.ReducesTo [0, 1] S_
  h_S_ : 0 < S_.numel

variable [Facts]

def fn {F : FTy → Type} [FloatOps F] (main_arg0 : FVec F S12288x128 .f32) : IVec S_ 1 :=
  let main_v0 : FVec F S12288x128 .f32 := Host.absf main_arg0
  let main_cst : FVec F S_ .f32 := constant S_ .f32 0x7F800000#32
  let main_v1 : FVec F S12288x128 .f32 := broadcastInDim S12288x128 ![] bcast_S_S12288x128 main_cst
  let main_v2 : IVec S12288x128 1 := cmpf .olt main_v0 main_v1
  let main_c : IVec S_ 1 := constantI S_ 1 1#1
  let main_v3 : IVec S_ 1 := (fun x v => Host.reduce IntOp.andi x v reducesTo_S12288x128_S_d0_1 h_S_) main_v2 main_c
  main_v3
-- ==== Kernel.lean ====
abbrev S12288x128 : Shape := ⟨2, ![12288, 128]⟩
abbrev S128x128 : Shape := ⟨2, ![128, 128]⟩
abbrev S128x12288 : Shape := ⟨2, ![128, 12288]⟩
abbrev S128 : Shape := ⟨1, ![128]⟩
abbrev S128x1 : Shape := ⟨2, ![128, 1]⟩
abbrev S_ : Shape := ⟨0, ![]⟩

abbrev nBuf : Space → Nat
  | .hbm => 6
  | .vmem => 5
  | .smem => 0
  | _ => 0

abbrev bufTy : (tb : Table) → Fin (tcTables nBuf tb) → BufTy
  | .hbm, ⟨0, _⟩ => ⟨S12288x128, .f32⟩
  | .hbm, ⟨1, _⟩ => ⟨S12288x128, .f32⟩
  | .hbm, ⟨2, _⟩ => ⟨S_, .f32⟩
  | .hbm, ⟨3, _⟩ => ⟨S_, .f32⟩
  | .hbm, ⟨4, _⟩ => ⟨S_, .f32⟩
  | .hbm, ⟨5, _⟩ => ⟨S_, .f32⟩
  | .local _ .vmem, ⟨0, _⟩ => ⟨S128x128, .f32⟩
  | .local _ .vmem, ⟨1, _⟩ => ⟨S128x128, .f32⟩
  | .local _ .vmem, ⟨2, _⟩ => ⟨S12288x128, .f32⟩
  | .local _ .vmem, ⟨3, _⟩ => ⟨S128x128, .f32⟩
  | .local _ .vmem, ⟨4, _⟩ => ⟨S128x128, .f32⟩
  | _, _ => ⟨S12288x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_cst_0 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![96], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S12288x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S128x128_S128x128_0_0 : ∀ a, (![0, 0] : Fin 2 → Nat) a + S128x128.size a ≤ S128x128.size a
  h_S128x128 : 0 < S128x128.numel
  bitsLt_bf16_f32 : FTy.bits .bf16 < FTy.bits .f32
  inb_S12288x128_S12288x128_0_0 : ∀ a, (![0, 0] : Fin 2 → Nat) a + S12288x128.size a ≤ S12288x128.size a
  h_S12288x128 : 0 < S12288x128.numel
  reduces_S128x12288_S128 : S128x12288.Reduces [1] S128
  shapeCasts_S128_S128x1 : S128.ShapeCasts S128x1
  shapeCasts_S128x1_S128x1 : S128x1.ShapeCasts S128x1
  broadcasts_S128x1_S128x128 : S128x1.Broadcasts S128x128
  reducesTo_S12288x128_S_d0_1 : S12288x128.ReducesTo [0, 1] S_
  h_S_ : 0 < S_.numel
  dot_S128x128_S12288x128_S128x12288_1_1_0_0_n_n_wf : DotDims.WF S128x128 S12288x128 S128x12288 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x128.size a ≤ S12288x128.size a
  hwx0_0 : ∀ i : grid0.Coords, EltTy.bits .f32 = 32 ∨ (Rect.block (s := S12288x128) S128x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S12288x128.size a ≤ S12288x128.size a
  hwx0_1 : ∀ i : grid0.Coords, EltTy.bits .f32 = 32 ∨ (Rect.block (s := S12288x128) S12288x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S12288x128.size a
  hwx0_2 : ∀ i : grid0.Coords, EltTy.bits .f32 = 32 ∨ (Rect.block (s := S12288x128) S128x128.size (cc0_transform_2 i) (hinb0_2 i)).WholeWords (EltTy.packing .f32)

variable [Facts₀]

def dot_S128x128_S12288x128_S128x12288_1_1_0_0_n_n : DotDims S128x128 S12288x128 S128x12288 where
  lhsContracting := [1]
  rhsContracting := [1]
  lhsNonContracting := [0]
  rhsNonContracting := [0]
  lhsBatch := []
  rhsBatch := []
  wf := dot_S128x128_S12288x128_S128x12288_1_1_0_0_n_n_wf

abbrev win0_0 : Pipeline.Window sig grid0 :=
  Pipeline.Window.ofSpec (Memref.whole main_arg0) S128x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S12288x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S128x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S12288x128 : Shape := ⟨2, ![12288, 128]⟩
abbrev S128x12288 : Shape := ⟨2, ![128, 12288]⟩
abbrev S12288x12288 : Shape := ⟨2, ![12288, 12288]⟩
abbrev S_ : Shape := ⟨0, ![]⟩
abbrev S12288 : Shape := ⟨1, ![12288]⟩

abbrev nBuf : Space → Nat
  | .hbm => 14
  | .vmem => 0
  | .smem => 0
  | _ => 0

abbrev bufTy : (tb : Table) → Fin (tcTables nBuf tb) → BufTy
  | .hbm, ⟨0, _⟩ => ⟨S12288x128, .f32⟩
  | .hbm, ⟨1, _⟩ => ⟨S128x12288, .f32⟩
  | .hbm, ⟨2, _⟩ => ⟨S12288x12288, .f32⟩
  | .hbm, ⟨3, _⟩ => ⟨S_, .f32⟩
  | .hbm, ⟨4, _⟩ => ⟨S12288x12288, .f32⟩
  | .hbm, ⟨5, _⟩ => ⟨S12288x12288, .f32⟩
  | .hbm, ⟨6, _⟩ => ⟨S12288x12288, .f32⟩
  | .hbm, ⟨7, _⟩ => ⟨S_, .f32⟩
  | .hbm, ⟨8, _⟩ => ⟨S12288, .f32⟩
  | .hbm, ⟨9, _⟩ => ⟨S12288, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | _, _ => ⟨S12288x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst_0 : Ref sig .tc := ⟨.hbm, 7, rfl⟩
abbrev main_v5 : Ref sig .tc := ⟨.hbm, 8, rfl⟩
abbrev main_v6 : Ref sig .tc := ⟨.hbm, 9, rfl⟩
abbrev main_cst_1 : Ref sig .tc := ⟨.hbm, 10, rfl⟩
abbrev main_v7 : Ref sig .tc := ⟨.hbm, 11, rfl⟩
abbrev main_cst_2 : Ref sig .tc := ⟨.hbm, 12, rfl⟩
abbrev main_v8 : Ref sig .tc := ⟨.hbm, 13, rfl⟩

abbrev nD : Nat := 1
abbrev τ : Topo := Topo.v7x

variable {F : FTy → Type} [FloatOps F]

class Facts₀ : Prop where
  transposes_S12288x128_S128x12288_1_0 : S12288x128.Transposes [1, 0] S128x12288
  bcast_S_S12288x12288 : S_.BroadcastsInDim S12288x12288 (![] : Fin 0 → Fin S12288x12288.rank)
  reducesTo_S12288x12288_S12288_d1 : S12288x12288.ReducesTo [1] S12288
  h_S_ : 0 < S_.numel
  reducesTo_S12288_S_d0 : S12288.ReducesTo [0] S_
  dot_S12288x128_S128x12288_S12288x12288_1_0_0_1_n_n_wf : DotDims.WF S12288x128 S128x12288 S12288x12288 [1] [0] [0] [1] [] []

variable [Facts₀]

def dot_S12288x128_S128x12288_S12288x12288_1_0_0_1_n_n : DotDims S12288x128 S128x12288 S12288x12288 where
  lhsContracting := [1]
  rhsContracting := [0]
  lhsNonContracting := [0]
  rhsNonContracting := [1]
  lhsBatch := []
  rhsBatch := []
  wf := dot_S12288x128_S128x12288_S12288x12288_1_0_0_1_n_n_wf

class Facts : Prop extends Facts₀ where

variable [Facts]
-- ==== Proof.KDataB.lean ====
/-
  The proof data of the kernel's one pipeline, for any float instance.

  The pipeline runs the body at 96 grid points. Window 0 brings rows [128 t, 128 t + 128) of the input, window 1
  the whole input (the same array: the two windows share it, each holding half of its share), window 2 takes the
  body's 128 x 128 result back to rows [128 t, 128 t + 128) of the output array. The body only reads the two input
  buffers, so after every point they hold their blocks; the output buffer holds the one stored value, the body's
  pure function of the two blocks.
-/
import proofs.«117691_j85590108274881_1_alg».proof.Proof.Gen.Kernel.Launch
import proofs.«117691_j85590108274881_1_alg».proof.Proof.Gen.Kernel.Skeleton
import proofs.«117691_j85590108274881_1_alg».proof.Proof.Gen.Kernel.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffers when the region is entered: as launched (the region is the first thing the program runs). -/
abbrev V (c : Dev nD) (b : Ref sig .tc) : Buf (Elt F) ((c : Thread nD τ).loc b) := m ((c : Thread nD τ).loc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The whole of a 128 x 128 buffer, and of a 12288 x 128 one: the rectangles the body loads and stores through. -/
abbrev rQ : Rect S128x128 := Rect.unit (s := S128x128) ![0, 0] S128x128.size inb_S128x128_S128x128_0_0
abbrev rK : Rect S12288x128 := Rect.unit (s := S12288x128) ![0, 0] S12288x128.size inb_S12288x128_S12288x128_0_0

/-- The output buffer after the body, from the two input blocks: its one store, of the body's pure function of
    the loaded blocks, over the whole buffer. -/
def out0_2 (x0 : Vec F S128x128 .f32) (x1 : Vec F S12288x128 .f32) : Vec F S128x128 .f32 :=
  View.canon [⟨rQ, k0_pay1 (View.ld x0 rQ) (View.ld x1 rK)⟩]

/-- The store covers the buffer. -/
theorem cover0_2 (p0 : Vec F S128x128 .f32) (y : S128x128.Idx) :
    ∃ pc ∈ ([⟨rQ, p0⟩] : List (View.Piece (Elt F) S128x128 .f32)), y ∈ pc.1.set :=
  View.cover_of_tiled [⟨rQ, p0⟩] S128x128.size (by rfl) y

/-- The proof data on core `c`: the arrays as launched; after the body at point `t` each input buffer at its block
    and the output buffer at the body's function of the two blocks; between points only the scoped buffers that are
    no staging buffer; the shared input array held half by window 0 and half by window 1; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => out0_2 (iblk m c 0 t) (iblk m c 1 t)
  Φ _ := Pipeline.scopedRest (Ix := Unit) (Name := ℕ) (U := UR sig nD τ) (Lvl := ℕ) (Val := Elt F) spec0 c
  q w := match w with
    | ⟨0, _⟩ => fullShare.left
    | ⟨1, _⟩ => fullShare.right
    | ⟨2, _⟩ => fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = out0_2 (iblk m c 0 t) (iblk m c 1 t) := by dsimp only [dats]

/-- The shares: the input array's two halves, and the output array whole. -/
theorem share0 (c : Dev nD) : (dats m 0 c).share 0 = fullShare.left := rfl
theorem share1 (c : Dev nD) : (dats m 0 c).share 1 = fullShare.right := rfl
theorem share2 (c : Dev nD) : (dats m 0 c).share 2 = fullShare := rfl

end Cert.Kernel.Hand

end
-- ==== Proof.KBodyB.lean ====
/-
  The body obligation of the kernel's pipeline, for any float instance.

  At every grid point the two input buffers hold their blocks, fetched there or not (the whole-array window is
  fetched once and its block index never moves), and the output buffer holds anything. The body loads the two
  blocks, loads the output buffer without using the value, and stores its pure function of the two blocks over
  the whole output buffer: both inputs are left as found and the output buffer holds that function of the blocks.
-/
import proofs.«117691_j85590108274881_1_alg».proof.Proof.KDataB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Window 0's buffer holds its block at every point: it is fetched at every point, and the body leaves it. -/
theorem before0_0 (c : Dev nD) (t : Fin cfg0.N) (d) : (dats m 0 c).before 0 t d = iblk m c 0 t :=
  ((dats m 0 c).before_in_eq_fetched 0 rfl (fun _ => rfl) (fun _ _ _ => rfl)
    (fun t => by rw [after0_0]; unfold Dat.blockOf iblk; rw [A_eq]; try rfl) t d).trans
    (by unfold Dat.fetched Dat.blockOf iblk; rw [A_eq]; try rfl)

/-- Window 1's buffer holds the whole array at every point: fetched at the first, its block index never moves
    and the body leaves it. -/
theorem before0_1 (c : Dev nD) (t : Fin cfg0.N) (d) : (dats m 0 c).before 1 t d = iblk m c 1 t :=
  ((dats m 0 c).before_in_eq_fetched 1 rfl (fun _ => rfl) (fun _ _ _ => rfl)
    (fun t => by rw [after0_1]; unfold Dat.blockOf iblk; rw [A_eq]; try rfl) t d).trans
    (by unfold Dat.fetched Dat.blockOf iblk; rw [A_eq]; try rfl)

set_option maxHeartbeats 1000000 in
/-- The body on whole buffers, the inputs' at contents `x0`, `x1` and the output's at anything, runs to the
    continuation holding the inputs' as they were and the output's at `out0_2 x0 x1`. -/
theorem sound_kernel (c : Dev nD) (E : Set ℕ) (i : grid0.Coords) (arg1 : Memref sig .tc .vmem S128x128 .f32) (harg1 : arg1.IsWhole) (arg2 : Memref sig .tc .vmem S12288x128 .f32) (harg2 : arg2.IsWhole) (arg3 : Memref sig .tc .vmem S128x128 .f32) (harg3 : arg3.IsWhole)
    (x0 : Vec F S128x128 .f32) (x1 : Vec F S12288x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__kernel i arg1 harg1 arg2 harg2 arg3 harg3) K := by
  simp only [cc0__kernel_eq_skeleton]; unfold cc0__kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body at any point: the inputs' buffers hold their blocks, so `sound_kernel` applies; the invariant and what
    the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  iintro ⟨HΦ, Ho, ⟨%d0, H0⟩, ⟨%d1, H1⟩, ⟨%d2, H2⟩⟩
  iapply (sound_kernel c Set.univ (grid0.coords t) _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation (c : Dev nD) : BodyObligation (dats (F := F) m 0 c) (defs₀ (F := F)) Variants.none () Set.univ := fun t => by
  rw [bigSep_W0, bigSep_W0]
  exact sound_body m c t

end Cert.Kernel.Hand

end
-- ==== Proof.KRunB.lean ====
/-
  The run of the kernel's program, for any float instance.

  The program is one kernel region followed by four host operations (a zero, the sum of the whole output array, the
  constant 1572864, their quotient). The region is entered from the launch memory: the input array's buffer, which
  two windows read, is split into two half shares, one per window; the output array's buffer goes to its window whole;
  the four host buffers bypass the region. At the region's exit the two halves are joined again, the output array
  holds what the pipeline wrote back, and the host operations run on those buffers. Every weakly fair execution ends,
  with the input array as launched and the result buffer at the host operations' value of the written output array.
-/
import proofs.«117691_j85590108274881_1_alg».proof.Proof.KBodyB
import Idealize.ShloMosaic.Lib.Pipeline.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The pipeline library's algebra is the whole of the proof's. -/
abbrev EP : Emb (UR sig nD τ) (MT nD τ sig Unit (Elt F) ℕ (UR sig nD τ) ℕ) := emb₁

variable (m : (ℓ : Loc nD τ sig) → Buf (Elt F) ℓ) (ρ : Dev nD → PrngReg)

/-- Core `c`'s buffers at launch, as a valuation. -/
abbrev V₀ (c : Dev nD) : Valuation τ sig (Elt F) := fun b => m ((c : Dev nD), b)

/-- The output array after the region: what the pipeline's write-backs left. -/
def outFinal (c : Dev nD) : Buf (Elt F) ((c : Thread nD τ).loc main_v0) := (dats m 0 c).arrAt 2 cfg0.N

/-- Core `c`'s buffers when the region is left: the output array at what was written back, the rest as launched. -/
def Vx (c : Dev nD) : Valuation τ sig (Elt F) :=
  Function.update (V₀ m c) (Proc.devRef .tc main_v0) (outFinal m c)

theorem Vx_of_ne (c : Dev nD) (b : Ref sig .tc) (h : b ≠ main_v0) : Vx m c (Proc.devRef .tc b) = V m c b :=
  Function.update_of_ne (StableHlo.devRef_ne_of_ne h) _ _

theorem Vx_out (c : Dev nD) : Vx m c (Proc.devRef .tc main_v0) = outFinal m c :=
  Function.update_self _ _ _

/-- The two distinct buffers behind the three windows' arrays, each whole at the full share. -/
theorem arrBufs_eq (c : Dev nD) (W : (b : Ref sig .tc) → Buf (Elt F) ((c : Thread nD τ).loc b)) :
    (Pipeline.arrBufs (Ix := Unit) (Name := ℕ) (U := UR sig nD τ) (Lvl := ℕ) spec0 c W : sProp 𝕄)
      = iprop((((c : Thread nD τ).loc main_arg0) ↦{fullShare} W main_arg0) ∗ (((c : Thread nD τ).loc main_v0) ↦{fullShare} W main_v0)) := by
  unfold Pipeline.arrBufs
  exact bigSep_eq_bigSepL_of_eq [main_arg0, main_v0] (by decide) (by decide) _

/-- The pipeline's arrays, window by window: the input array at its two half shares, the output array whole. -/
theorem arrays_eq3 (c : Dev nD) (G : (w : Fin cfg0.W) → Buf (Elt F) ((cfg0.win w).arr.view.loc (c : Thread nD τ))) :
    ((dats m 0 c).arrays G : sProp 𝕄)
      = iprop((((c : Thread nD τ).loc main_arg0) ↦{fullShare.left} G 0) ∗ (((c : Thread nD τ).loc main_arg0) ↦{fullShare.right} G 1)
          ∗ (((c : Thread nD τ).loc main_v0) ↦{fullShare} G 2)) := by
  unfold Dat.arrays
  rw [bigSep_W0, (arr_whole0 0).set_eq_univ, (arr_whole0 2).set_eq_univ, share0, share1, share2]

/-- The buffers no window reads or writes are the same before and after the region. -/
theorem unscopedRest_Vx (c : Dev nD) :
    (Pipeline.unscopedRest (Ix := Unit) (Name := ℕ) (U := UR sig nD τ) (Lvl := ℕ) spec0 c (fun b => Vx m c (Proc.devRef .tc b)) : sProp 𝕄)
      = Pipeline.unscopedRest spec0 c (V m c) := by
  unfold Pipeline.unscopedRest
  refine bigSep_congr fun b hb => ?_
  beta_reduce
  rw [Vx_of_ne m c b ?_]
  intro h; subst h
  exact (Finset.mem_sdiff.mp hb).2 (Finset.mem_image.mpr ⟨2, Finset.mem_univ _, rfl⟩)

/-- No core owes another anything: no level is assigned. -/
abbrev L : GSem nD τ sig → Finset Unit := fun _ => ∅
abbrev lv : GSem nD τ sig → Unit → ℕ := fun _ _ => 0
/-- The prefetched tables' admissible contents: no table. -/
abbrev adm : (p : Fin 1) → (pcfgs (F := F) p).Adm := fun p => (cfgs p).toPCfg_adm

/-- What rides beside the buffers: the core owes nothing. -/
abbrev R (c : Dev nD) : sProp 𝕄 := iprop(∃ W, owes (c : Thread nD τ) (0 : CellTallies nD τ sig Unit) W)

/-- THE REGION: entered from the launch memory, left with the output array written. -/
def reg0 : Pipeline.RegionSeg (pcfgs (F := F)) adm (dats m) () defs₀ Variants.none L lv 0 where
  win := winFacts₀0
  block_pos := block_pos0
  stage_whole := stage_whole0
  K := PEmpty
  osem := fun k => k.elim
  ho := Pipeline.OwnSemFacts.none _
  hbody c := (body_obligation m c).loose
  hwaits := Pipeline.hwaits_of_owed_zero _ _ _ _ L lv 0 fun _ _ => rfl
  pre c := iprop(StableHlo.held (c : Thread nD τ) (Pipeline.ucRefs τ sig) (V₀ m c) ∗ R c)
  post c := iprop(StableHlo.held (c : Thread nD τ) (Pipeline.ucRefs τ sig) (Vx m c) ∗ R c)
  X c := iprop(emp)
  Y c := iprop(emp)
  Z c := Pipeline.unscopedRest (Ix := Unit) (Name := ℕ) (U := UR sig nD τ) (Lvl := ℕ) spec0 c (V m c)
  hentry c := by
    rw [show StableHlo.held (c : Thread nD τ) (Pipeline.ucRefs τ sig) (V₀ m c) = unscopedBufs c (V m c) from (Pipeline.unscopedBufs_held c _).symm,
      Pipeline.unscopedBufs_split₀ cfgs 0 winFacts₀0.arr_unscoped c (V m c), arrBufs_eq, arrays_eq3]
    iintro ⟨⟨⟨⟨Ha, Hv⟩, Hrest⟩, HO⟩, -, -⟩
    ihave Hs := (pointsTo_share (PosShare.mem_left_op_right fullShare)).1 $$ Ha
    icases Hs with ⟨Hl, Hr⟩
    imodintro
    isplitl [Hl Hr Hv]
    · isplitl [Hl]; · iexact Hl
      isplitl [Hr]; · iexact Hr
      iexact Hv
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (dats m 0 c).Φ 0 = Pipeline.scopedRest (Ix := Unit) (Name := ℕ) (U := UR sig nD τ) (Lvl := ℕ) (Val := Elt F) spec0 c from rfl]
    iintro ⟨-, -, Hr⟩
    iexact Hr
  hout c := by
    rw [Pipeline.ownSems0_none, show (dats m 0 c).Φ (Fin.last cfg0.N) = Pipeline.scopedRest (Ix := Unit) (Name := ℕ) (U := UR sig nD τ) (Lvl := ℕ) (Val := Elt F) spec0 c from rfl]
    iintro Hr
    isplitr; · iempintro
    isplitr; · iempintro
    iexact Hr
  hexit c := by
    rw [show StableHlo.held (c : Thread nD τ) (Pipeline.ucRefs τ sig) (Vx m c) = unscopedBufs c (fun b => Vx m c (Proc.devRef .tc b)) from (Pipeline.unscopedBufs_held c _).symm,
      Pipeline.unscopedBufs_split₀ cfgs 0 winFacts₀0.arr_unscoped c _, arrBufs_eq, arrays_eq3, unscopedRest_Vx,
      Vx_of_ne m c main_arg0 (by decide), Vx_out, (dats m 0 c).arrAt_in 0 rfl, (dats m 0 c).arrAt_in 1 rfl]
    iintro ⟨⟨Hl, Hr, Hv⟩, HO, -, HZ⟩
    ihave Ha := (pointsTo_share (PosShare.mem_left_op_right fullShare)).2 $$ [Hl Hr]
    · isplitl [Hl]; · iexact Hl
      iexact Hr
    imodintro
    isplitr [HO]
    · isplitl [Ha Hv]
      · isplitl [Ha]; · iexact Ha
        iexact Hv
      iexact HZ
    · unfold Pipeline.Dat.owesAt Pipeline.owesWithin
      icases HO with ⟨%W, -, HO⟩; iexists W; iexact HO

/-- THE HOST OPERATIONS after the region, over the unscoped buffers as the region left them. -/
def seg1 : Pipeline.HostSeg (Name := ℕ) (U := UR sig nD τ) (pcfgs (F := F)) defs₀ Variants.none L lv :=
  Pipeline.HostSeg.ofOps _ _ _ _ _ (Pipeline.ucRefs τ sig) hostOps1 (fun op h => Pipeline.sub_ucRefs op ((List.forall_iff_forall_mem.mp hostOps1_sub) op h))
    (by intro _ h; (repeat (cases h with | head => rfl | tail _ h => ?_)); exact nomatch h) (Vx m) R

/-- The buffers at the end: the host operations applied to what the region left. -/
abbrev Vend (c : Dev nD) : Valuation τ sig (Elt F) := StableHlo.after hostOps1 (Vx m c)

/-- The launch element: the pipeline library's at the staging cells. -/
def u₀ : UR sig nD τ := initOf (Pipeline.cells cfgs cellOf_inj) (Pipeline.launchToks cfgs cellOf_inj)

/-- The physical post: the input array as launched, the result at the host operations' value. -/
def QC : PUnit × MemSt nD τ sig (Elt F) → Prop := fun r =>
  ∀ c : Dev nD, r.2.mem ((c : Thread nD τ).loc main_arg0) = m ((c : Thread nD τ).loc main_arg0)
    ∧ r.2.mem ((c : Thread nD τ).loc main_v2) = Vend m c (Proc.devRef .tc main_v2)

/-- The host operations do not write the input array. -/
theorem Vend_arg0 (c : Dev nD) : Vend m c (Proc.devRef .tc main_arg0) = m ((c : Thread nD τ).loc main_arg0) := by
  unfold Vend
  rw [StableHlo.after_of_forall_not_mem (b := Proc.devRef .tc main_arg0) hostOps1 (Vx m c) ?_]
  · exact Vx_of_ne m c main_arg0 (by decide)
  · intro op hop
    simp only [hostOps1, List.mem_cons, List.mem_nil_iff, or_false] at hop
    rcases hop with rfl | rfl | rfl | rfl <;>
      simp only [StableHlo.unary_writes, StableHlo.binary_writes, StableHlo.nullary_writes, Finset.mem_singleton] <;>
      exact StableHlo.devRef_ne_of_ne (by decide)

set_option backward.isDefEq.respectTransparency.types false in
/-- At the compiled mesh, for any float values, from any memory with zero counters: every weakly fair execution of
    the program terminates, the input array ends as launched and the result buffer at the host operations' value of
    the output array the pipeline wrote. -/
theorem run_main : θ_run defs (onTc (τ := τ) (main (F := F))) (s₀ m ρ) (QC m) :=
  Pipeline.θ_run_regions_kit (pcfgs (F := F)) adm (dats m) () cellOf_inj EP defs₀ Variants.none L lv m ρ main [.region (reg0 m), .host (seg1 m)]
    (fun c Q => by rw [main_segs adm (dats m) () Variants.none L lv (seg1 m) (reg0 m) rfl c])
    (by simp only [Pipeline.Seg.pipes_host, Pipeline.Seg.pipes_region, Pipeline.Seg.pipes_nil]; decide) (O₀ := 0) (hL := fun _ _ => rfl) (G := fun _ => iprop(emp)) (u₀ := u₀)
    (hu₀ := by
      unfold u₀
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V₀ m c) ∗ R c))
    (Tₙ := fun c => StableHlo.held (c : Thread nD τ) (Pipeline.ucRefs τ sig) (Vend m c))
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (V₀ m c) from Pipeline.unscopedBufs_held c (V₀ m c)]
      iintro ⟨⟨Hh, -, HO, -, -, -⟩, -⟩
      imodintro
      isplitl [Hh]; · iexact Hh
      iexists ∅; iexact HO)
    (QY := fun c s => s.mem ((c : Thread nD τ).loc main_arg0) = m ((c : Thread nD τ).loc main_arg0)
      ∧ s.mem ((c : Thread nD τ).loc main_v2) = Vend m c (Proc.devRef .tc main_v2))
    (hfin := fun c s' => by
      rw [← Pipeline.unscopedBufs_held c (Vend m c)]
      unfold unscopedBufs
      iintro ⟨Hh, HSI⟩
      ihave Hr := (pointsTo_read_all (Finset.univ.filter fun b : Ref sig .tc => ¬ b.isScoped) (fun b => (c : Thread nD τ).loc b) (fun b => Vend m c (Proc.devRef .tc b)) s') $$ [Hh HSI]
      · isplitl [Hh] <;> iassumption
      icases Hr with ⟨%ha, HSI⟩
      imodintro
      isplitr
      · ipureintro
        exact ⟨(ha main_arg0 (by decide)).trans (Vend_arg0 m c), ha main_v2 (by decide)⟩
      iexact HSI)
    (hQ := fun _ h => h)

/-- THE FRAME: every weakly fair execution terminates, nothing faulting, and the input array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => (h c).1) (run_main m ρ)

end Cert.Kernel.Hand

end
-- ==== Proof.KDataI.lean ====
/-
  The proof data of the kernel's one pipeline, for any float instance.

  The pipeline runs the body at 96 grid points. Window 0 brings rows [128 t, 128 t + 128) of the input, window 1
  the whole input (the same array: the two windows share it, each holding half of its share), window 2 takes the
  body's 128 x 128 result back to rows [128 t, 128 t + 128) of the output array. The body only reads the two input
  buffers, so after every point they hold their blocks; the output buffer holds the one stored value, the body's
  pure function of the two blocks.
-/
import proofs.«117691_j85590108274881_1_alg».proof.Proof.Gen.KernelIdeal.Launch
import proofs.«117691_j85590108274881_1_alg».proof.Proof.Gen.KernelIdeal.Skeleton
import proofs.«117691_j85590108274881_1_alg».proof.Proof.Gen.KernelIdeal.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffers when the region is entered: as launched (the region is the first thing the program runs). -/
abbrev V (c : Dev nD) (b : Ref sig .tc) : Buf (Elt F) ((c : Thread nD τ).loc b) := m ((c : Thread nD τ).loc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The whole of a 128 x 128 buffer, and of a 12288 x 128 one: the rectangles the body loads and stores through. -/
abbrev rQ : Rect S128x128 := Rect.unit (s := S128x128) ![0, 0] S128x128.size inb_S128x128_S128x128_0_0
abbrev rK : Rect S12288x128 := Rect.unit (s := S12288x128) ![0, 0] S12288x128.size inb_S12288x128_S12288x128_0_0

/-- The output buffer after the body, from the two input blocks: its one store, of the body's pure function of
    the loaded blocks, over the whole buffer. -/
def out0_2 (x0 : Vec F S128x128 .f32) (x1 : Vec F S12288x128 .f32) : Vec F S128x128 .f32 :=
  View.canon [⟨rQ, k0_pay1 (View.ld x0 rQ) (View.ld x1 rK)⟩]

/-- The store covers the buffer. -/
theorem cover0_2 (p0 : Vec F S128x128 .f32) (y : S128x128.Idx) :
    ∃ pc ∈ ([⟨rQ, p0⟩] : List (View.Piece (Elt F) S128x128 .f32)), y ∈ pc.1.set :=
  View.cover_of_tiled [⟨rQ, p0⟩] S128x128.size (by rfl) y

/-- The proof data on core `c`: the arrays as launched; after the body at point `t` each input buffer at its block
    and the output buffer at the body's function of the two blocks; between points only the scoped buffers that are
    no staging buffer; the shared input array held half by window 0 and half by window 1; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => out0_2 (iblk m c 0 t) (iblk m c 1 t)
  Φ _ := Pipeline.scopedRest (Ix := Unit) (Name := ℕ) (U := UR sig nD τ) (Lvl := ℕ) (Val := Elt F) spec0 c
  q w := match w with
    | ⟨0, _⟩ => fullShare.left
    | ⟨1, _⟩ => fullShare.right
    | ⟨2, _⟩ => fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = out0_2 (iblk m c 0 t) (iblk m c 1 t) := by dsimp only [dats]

/-- The shares: the input array's two halves, and the output array whole. -/
theorem share0 (c : Dev nD) : (dats m 0 c).share 0 = fullShare.left := rfl
theorem share1 (c : Dev nD) : (dats m 0 c).share 1 = fullShare.right := rfl
theorem share2 (c : Dev nD) : (dats m 0 c).share 2 = fullShare := rfl

end Cert.KernelIdeal.Hand

end
-- ==== Proof.KBodyI.lean ====
/-
  The body obligation of the kernel's pipeline, for any float instance.

  At every grid point the two input buffers hold their blocks, fetched there or not (the whole-array window is
  fetched once and its block index never moves), and the output buffer holds anything. The body loads the two
  blocks, loads the output buffer without using the value, and stores its pure function of the two blocks over
  the whole output buffer: both inputs are left as found and the output buffer holds that function of the blocks.
-/
import proofs.«117691_j85590108274881_1_alg».proof.Proof.KDataI

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Window 0's buffer holds its block at every point: it is fetched at every point, and the body leaves it. -/
theorem before0_0 (c : Dev nD) (t : Fin cfg0.N) (d) : (dats m 0 c).before 0 t d = iblk m c 0 t :=
  ((dats m 0 c).before_in_eq_fetched 0 rfl (fun _ => rfl) (fun _ _ _ => rfl)
    (fun t => by rw [after0_0]; unfold Dat.blockOf iblk; rw [A_eq]; try rfl) t d).trans
    (by unfold Dat.fetched Dat.blockOf iblk; rw [A_eq]; try rfl)

/-- Window 1's buffer holds the whole array at every point: fetched at the first, its block index never moves
    and the body leaves it. -/
theorem before0_1 (c : Dev nD) (t : Fin cfg0.N) (d) : (dats m 0 c).before 1 t d = iblk m c 1 t :=
  ((dats m 0 c).before_in_eq_fetched 1 rfl (fun _ => rfl) (fun _ _ _ => rfl)
    (fun t => by rw [after0_1]; unfold Dat.blockOf iblk; rw [A_eq]; try rfl) t d).trans
    (by unfold Dat.fetched Dat.blockOf iblk; rw [A_eq]; try rfl)

set_option maxHeartbeats 1000000 in
/-- The body on whole buffers, the inputs' at contents `x0`, `x1` and the output's at anything, runs to the
    continuation holding the inputs' as they were and the output's at `out0_2 x0 x1`. -/
theorem sound_kernel (c : Dev nD) (E : Set ℕ) (i : grid0.Coords) (arg1 : Memref sig .tc .vmem S128x128 .f32) (harg1 : arg1.IsWhole) (arg2 : Memref sig .tc .vmem S12288x128 .f32) (harg2 : arg2.IsWhole) (arg3 : Memref sig .tc .vmem S128x128 .f32) (harg3 : arg3.IsWhole)
    (x0 : Vec F S128x128 .f32) (x1 : Vec F S12288x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__kernel i arg1 harg1 arg2 harg2 arg3 harg3) K := by
  simp only [cc0__kernel_eq_skeleton]; unfold cc0__kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body at any point: the inputs' buffers hold their blocks, so `sound_kernel` applies; the invariant and what
    the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  iintro ⟨HΦ, Ho, ⟨%d0, H0⟩, ⟨%d1, H1⟩, ⟨%d2, H2⟩⟩
  iapply (sound_kernel c Set.univ (grid0.coords t) _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Hand

end
-- ==== Proof.KRunI.lean ====
/-
  The run of the kernel's program, for any float instance.

  The program is one kernel region followed by four host operations (a zero, the sum of the whole output array, the
  constant 1572864, their quotient). The region is entered from the launch memory: the input array's buffer, which
  two windows read, is split into two half shares, one per window; the output array's buffer goes to its window whole;
  the four host buffers bypass the region. At the region's exit the two halves are joined again, the output array
  holds what the pipeline wrote back, and the host operations run on those buffers. Every weakly fair execution ends,
  with the input array as launched and the result buffer at the host operations' value of the written output array.
-/
import proofs.«117691_j85590108274881_1_alg».proof.Proof.KBodyI
import Idealize.ShloMosaic.Lib.Pipeline.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The pipeline library's algebra is the whole of the proof's. -/
abbrev EP : Emb (UR sig nD τ) (MT nD τ sig Unit (Elt F) ℕ (UR sig nD τ) ℕ) := emb₁

variable (m : (ℓ : Loc nD τ sig) → Buf (Elt F) ℓ) (ρ : Dev nD → PrngReg)

/-- Core `c`'s buffers at launch, as a valuation. -/
abbrev V₀ (c : Dev nD) : Valuation τ sig (Elt F) := fun b => m ((c : Dev nD), b)

/-- The output array after the region: what the pipeline's write-backs left. -/
def outFinal (c : Dev nD) : Buf (Elt F) ((c : Thread nD τ).loc main_v0) := (dats m 0 c).arrAt 2 cfg0.N

/-- Core `c`'s buffers when the region is left: the output array at what was written back, the rest as launched. -/
def Vx (c : Dev nD) : Valuation τ sig (Elt F) :=
  Function.update (V₀ m c) (Proc.devRef .tc main_v0) (outFinal m c)

theorem Vx_of_ne (c : Dev nD) (b : Ref sig .tc) (h : b ≠ main_v0) : Vx m c (Proc.devRef .tc b) = V m c b :=
  Function.update_of_ne (StableHlo.devRef_ne_of_ne h) _ _

theorem Vx_out (c : Dev nD) : Vx m c (Proc.devRef .tc main_v0) = outFinal m c :=
  Function.update_self _ _ _

/-- The two distinct buffers behind the three windows' arrays, each whole at the full share. -/
theorem arrBufs_eq (c : Dev nD) (W : (b : Ref sig .tc) → Buf (Elt F) ((c : Thread nD τ).loc b)) :
    (Pipeline.arrBufs (Ix := Unit) (Name := ℕ) (U := UR sig nD τ) (Lvl := ℕ) spec0 c W : sProp 𝕄)
      = iprop((((c : Thread nD τ).loc main_arg0) ↦{fullShare} W main_arg0) ∗ (((c : Thread nD τ).loc main_v0) ↦{fullShare} W main_v0)) := by
  unfold Pipeline.arrBufs
  exact bigSep_eq_bigSepL_of_eq [main_arg0, main_v0] (by decide) (by decide) _

/-- The pipeline's arrays, window by window: the input array at its two half shares, the output array whole. -/
theorem arrays_eq3 (c : Dev nD) (G : (w : Fin cfg0.W) → Buf (Elt F) ((cfg0.win w).arr.view.loc (c : Thread nD τ))) :
    ((dats m 0 c).arrays G : sProp 𝕄)
      = iprop((((c : Thread nD τ).loc main_arg0) ↦{fullShare.left} G 0) ∗ (((c : Thread nD τ).loc main_arg0) ↦{fullShare.right} G 1)
          ∗ (((c : Thread nD τ).loc main_v0) ↦{fullShare} G 2)) := by
  unfold Dat.arrays
  rw [bigSep_W0, (arr_whole0 0).set_eq_univ, (arr_whole0 2).set_eq_univ, share0, share1, share2]

/-- The buffers no window reads or writes are the same before and after the region. -/
theorem unscopedRest_Vx (c : Dev nD) :
    (Pipeline.unscopedRest (Ix := Unit) (Name := ℕ) (U := UR sig nD τ) (Lvl := ℕ) spec0 c (fun b => Vx m c (Proc.devRef .tc b)) : sProp 𝕄)
      = Pipeline.unscopedRest spec0 c (V m c) := by
  unfold Pipeline.unscopedRest
  refine bigSep_congr fun b hb => ?_
  beta_reduce
  rw [Vx_of_ne m c b ?_]
  intro h; subst h
  exact (Finset.mem_sdiff.mp hb).2 (Finset.mem_image.mpr ⟨2, Finset.mem_univ _, rfl⟩)

/-- No core owes another anything: no level is assigned. -/
abbrev L : GSem nD τ sig → Finset Unit := fun _ => ∅
abbrev lv : GSem nD τ sig → Unit → ℕ := fun _ _ => 0
/-- The prefetched tables' admissible contents: no table. -/
abbrev adm : (p : Fin 1) → (pcfgs (F := F) p).Adm := fun p => (cfgs p).toPCfg_adm

/-- What rides beside the buffers: the core owes nothing. -/
abbrev R (c : Dev nD) : sProp 𝕄 := iprop(∃ W, owes (c : Thread nD τ) (0 : CellTallies nD τ sig Unit) W)

/-- THE REGION: entered from the launch memory, left with the output array written. -/
def reg0 : Pipeline.RegionSeg (pcfgs (F := F)) adm (dats m) () defs₀ Variants.none L lv 0 where
  win := winFacts₀0
  block_pos := block_pos0
  stage_whole := stage_whole0
  K := PEmpty
  osem := fun k => k.elim
  ho := Pipeline.OwnSemFacts.none _
  hbody c := (body_obligation m c).loose
  hwaits := Pipeline.hwaits_of_owed_zero _ _ _ _ L lv 0 fun _ _ => rfl
  pre c := iprop(StableHlo.held (c : Thread nD τ) (Pipeline.ucRefs τ sig) (V₀ m c) ∗ R c)
  post c := iprop(StableHlo.held (c : Thread nD τ) (Pipeline.ucRefs τ sig) (Vx m c) ∗ R c)
  X c := iprop(emp)
  Y c := iprop(emp)
  Z c := Pipeline.unscopedRest (Ix := Unit) (Name := ℕ) (U := UR sig nD τ) (Lvl := ℕ) spec0 c (V m c)
  hentry c := by
    rw [show StableHlo.held (c : Thread nD τ) (Pipeline.ucRefs τ sig) (V₀ m c) = unscopedBufs c (V m c) from (Pipeline.unscopedBufs_held c _).symm,
      Pipeline.unscopedBufs_split₀ cfgs 0 winFacts₀0.arr_unscoped c (V m c), arrBufs_eq, arrays_eq3]
    iintro ⟨⟨⟨⟨Ha, Hv⟩, Hrest⟩, HO⟩, -, -⟩
    ihave Hs := (pointsTo_share (PosShare.mem_left_op_right fullShare)).1 $$ Ha
    icases Hs with ⟨Hl, Hr⟩
    imodintro
    isplitl [Hl Hr Hv]
    · isplitl [Hl]; · iexact Hl
      isplitl [Hr]; · iexact Hr
      iexact Hv
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (dats m 0 c).Φ 0 = Pipeline.scopedRest (Ix := Unit) (Name := ℕ) (U := UR sig nD τ) (Lvl := ℕ) (Val := Elt F) spec0 c from rfl]
    iintro ⟨-, -, Hr⟩
    iexact Hr
  hout c := by
    rw [Pipeline.ownSems0_none, show (dats m 0 c).Φ (Fin.last cfg0.N) = Pipeline.scopedRest (Ix := Unit) (Name := ℕ) (U := UR sig nD τ) (Lvl := ℕ) (Val := Elt F) spec0 c from rfl]
    iintro Hr
    isplitr; · iempintro
    isplitr; · iempintro
    iexact Hr
  hexit c := by
    rw [show StableHlo.held (c : Thread nD τ) (Pipeline.ucRefs τ sig) (Vx m c) = unscopedBufs c (fun b => Vx m c (Proc.devRef .tc b)) from (Pipeline.unscopedBufs_held c _).symm,
      Pipeline.unscopedBufs_split₀ cfgs 0 winFacts₀0.arr_unscoped c _, arrBufs_eq, arrays_eq3, unscopedRest_Vx,
      Vx_of_ne m c main_arg0 (by decide), Vx_out, (dats m 0 c).arrAt_in 0 rfl, (dats m 0 c).arrAt_in 1 rfl]
    iintro ⟨⟨Hl, Hr, Hv⟩, HO, -, HZ⟩
    ihave Ha := (pointsTo_share (PosShare.mem_left_op_right fullShare)).2 $$ [Hl Hr]
    · isplitl [Hl]; · iexact Hl
      iexact Hr
    imodintro
    isplitr [HO]
    · isplitl [Ha Hv]
      · isplitl [Ha]; · iexact Ha
        iexact Hv
      iexact HZ
    · unfold Pipeline.Dat.owesAt Pipeline.owesWithin
      icases HO with ⟨%W, -, HO⟩; iexists W; iexact HO

/-- THE HOST OPERATIONS after the region, over the unscoped buffers as the region left them. -/
def seg1 : Pipeline.HostSeg (Name := ℕ) (U := UR sig nD τ) (pcfgs (F := F)) defs₀ Variants.none L lv :=
  Pipeline.HostSeg.ofOps _ _ _ _ _ (Pipeline.ucRefs τ sig) hostOps1 (fun op h => Pipeline.sub_ucRefs op ((List.forall_iff_forall_mem.mp hostOps1_sub) op h))
    (by intro _ h; (repeat (cases h with | head => rfl | tail _ h => ?_)); exact nomatch h) (Vx m) R

/-- The buffers at the end: the host operations applied to what the region left. -/
abbrev Vend (c : Dev nD) : Valuation τ sig (Elt F) := StableHlo.after hostOps1 (Vx m c)

/-- The launch element: the pipeline library's at the staging cells. -/
def u₀ : UR sig nD τ := initOf (Pipeline.cells cfgs cellOf_inj) (Pipeline.launchToks cfgs cellOf_inj)

/-- The physical post: the input array as launched, the result at the host operations' value. -/
def QC : PUnit × MemSt nD τ sig (Elt F) → Prop := fun r =>
  ∀ c : Dev nD, r.2.mem ((c : Thread nD τ).loc main_arg0) = m ((c : Thread nD τ).loc main_arg0)
    ∧ r.2.mem ((c : Thread nD τ).loc main_v2) = Vend m c (Proc.devRef .tc main_v2)

/-- The host operations do not write the input array. -/
theorem Vend_arg0 (c : Dev nD) : Vend m c (Proc.devRef .tc main_arg0) = m ((c : Thread nD τ).loc main_arg0) := by
  unfold Vend
  rw [StableHlo.after_of_forall_not_mem (b := Proc.devRef .tc main_arg0) hostOps1 (Vx m c) ?_]
  · exact Vx_of_ne m c main_arg0 (by decide)
  · intro op hop
    simp only [hostOps1, List.mem_cons, List.mem_nil_iff, or_false] at hop
    rcases hop with rfl | rfl | rfl | rfl <;>
      simp only [StableHlo.unary_writes, StableHlo.binary_writes, StableHlo.nullary_writes, Finset.mem_singleton] <;>
      exact StableHlo.devRef_ne_of_ne (by decide)

set_option backward.isDefEq.respectTransparency.types false in
/-- At the compiled mesh, for any float values, from any memory with zero counters: every weakly fair execution of
    the program terminates, the input array ends as launched and the result buffer at the host operations' value of
    the output array the pipeline wrote. -/
theorem run_main : θ_run defs (onTc (τ := τ) (main (F := F))) (s₀ m ρ) (QC m) :=
  Pipeline.θ_run_regions_kit (pcfgs (F := F)) adm (dats m) () cellOf_inj EP defs₀ Variants.none L lv m ρ main [.region (reg0 m), .host (seg1 m)]
    (fun c Q => by rw [main_segs adm (dats m) () Variants.none L lv (seg1 m) (reg0 m) rfl c])
    (by simp only [Pipeline.Seg.pipes_host, Pipeline.Seg.pipes_region, Pipeline.Seg.pipes_nil]; decide) (O₀ := 0) (hL := fun _ _ => rfl) (G := fun _ => iprop(emp)) (u₀ := u₀)
    (hu₀ := by
      unfold u₀
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V₀ m c) ∗ R c))
    (Tₙ := fun c => StableHlo.held (c : Thread nD τ) (Pipeline.ucRefs τ sig) (Vend m c))
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (V₀ m c) from Pipeline.unscopedBufs_held c (V₀ m c)]
      iintro ⟨⟨Hh, -, HO, -, -, -⟩, -⟩
      imodintro
      isplitl [Hh]; · iexact Hh
      iexists ∅; iexact HO)
    (QY := fun c s => s.mem ((c : Thread nD τ).loc main_arg0) = m ((c : Thread nD τ).loc main_arg0)
      ∧ s.mem ((c : Thread nD τ).loc main_v2) = Vend m c (Proc.devRef .tc main_v2))
    (hfin := fun c s' => by
      rw [← Pipeline.unscopedBufs_held c (Vend m c)]
      unfold unscopedBufs
      iintro ⟨Hh, HSI⟩
      ihave Hr := (pointsTo_read_all (Finset.univ.filter fun b : Ref sig .tc => ¬ b.isScoped) (fun b => (c : Thread nD τ).loc b) (fun b => Vend m c (Proc.devRef .tc b)) s') $$ [Hh HSI]
      · isplitl [Hh] <;> iassumption
      icases Hr with ⟨%ha, HSI⟩
      imodintro
      isplitr
      · ipureintro
        exact ⟨(ha main_arg0 (by decide)).trans (Vend_arg0 m c), ha main_v2 (by decide)⟩
      iexact HSI)
    (hQ := fun _ h => h)

/-- THE FRAME: every weakly fair execution terminates, nothing faulting, and the input array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => (h c).1) (run_main m ρ)

end Cert.KernelIdeal.Hand

end
-- ==== Proof.Spec.lean ====
/-
  The mathematics of the uniformity loss, stated once over the extended reals.

  For an array `x` of 12288 rows of 128 numbers and the temperature `temp`, row `i` has the value
  `rowLse x i = log (0 + ∑ j, exp ((∑ d, x i d * x j d) / temp))`, and the loss is the mean of the rows' values,
  `(0 + ∑ i, rowLse x i) / 12288`. The kernel writes every row's value into all 128 lanes of an output array and
  takes the mean of that array, `(0 + ∑ (i, l), rowLse x i) / 1572864`. The two agree for every extended real
  the rows' values may be: the sum over the lanes is 128 copies of the row's value, 128 copies distribute over
  the sum of the rows, and dividing 128 copies of `S` by 1572864 = 128 * 12288 is dividing `S` by 12288 — also at
  the two infinities.
-/
import Idealize.ShloMosaic.PureOps.Ideal
import Idealize.ShloMosaic.PureOps.Ideal.Laws
import Idealize.ShloMosaic.Lib.ValueIdx
import Mathlib.Data.EReal.Operations

noncomputable section

namespace Cert.Spec

open Idealize.ShloMosaic Idealize.ShloMosaic.ValueIdx

/-- The shape of the input and of the kernel's output array. -/
abbrev SX : Shape := ⟨2, ![12288, 128]⟩

/-- The temperature: the extended real the literal's word denotes. -/
def temp : EReal := Ideal.ofBits .f32 0x3D8F5C29#32

/-- The sums' initial value: the zero word. -/
def zero : EReal := Ideal.ofBits .f32 0x00000000#32

/-- The scaled similarity of rows `i` and `j`. -/
def sim (x : SX.Idx → EReal) (i j : Fin 12288) : EReal :=
  Ideal.div (∑ d : Fin 128, x (ix2 i d) * x (ix2 j d)) temp

/-- Row `i`'s value: the logarithm of the sum of the exponentials of its similarities. -/
def rowLse (x : SX.Idx → EReal) (i : Fin 12288) : EReal :=
  Ideal.log (zero + ∑ j : Fin 12288, Ideal.exp (sim x i j))

/-- The loss as the reference computes it: the mean of the rows' values. -/
def refResult (x : SX.Idx → EReal) : EReal :=
  Ideal.div (zero + ∑ i : Fin 12288, rowLse x i) (Ideal.ofBits .f32 0x46400000#32)

/-- The kernel's output array: row `i`'s value in every lane of row `i`. -/
def outArr (x : SX.Idx → EReal) : SX.Idx → EReal := fun j => rowLse x ⟨(j 0).val, idx2_lt0 j⟩

/-- The loss as the kernel's program computes it: the mean of the whole output array. -/
def kerResult (x : SX.Idx → EReal) : EReal :=
  Ideal.div (zero + ∑ j : SX.Idx, outArr x j) (Ideal.ofBits .f32 0x49C00000#32)

/-- The zero word denotes `0`. -/
theorem zero_eq : zero = 0 := by
  unfold zero; simp [Ideal.ofBits, Ideal.ieee]

/-- The kernel's divisor word denotes `1572864 = 1.5 * 2 ^ 20`. -/
theorem ofBits_1572864 : Ideal.ofBits .f32 0x49C00000#32 = ((1572864 : ℝ) : EReal) := by
  simp [Ideal.ofBits, Ideal.ieee, -EReal.coe_mul]; norm_num

/-- The reference's divisor word denotes `12288 = 1.5 * 2 ^ 13`. -/
theorem ofBits_12288 : Ideal.ofBits .f32 0x46400000#32 = ((12288 : ℝ) : EReal) := by
  simp [Ideal.ofBits, Ideal.ieee, -EReal.coe_mul]; norm_num

/-- The sum of the output array: each row's 128 lanes hold the row's value, so the sum over the lanes is 128 copies
    of it, and the copies come out of the sum over the rows (an additive-monoid fact: no distributivity is used). -/
theorem sum_outArr (x : SX.Idx → EReal) :
    ∑ j : SX.Idx, outArr x j = 128 • ∑ i : Fin 12288, rowLse x i := by
  rw [sum_idx2]
  have h : ∀ a : Fin 12288, ∑ b : Fin 128, outArr x (ix2 a b) = 128 • rowLse x a := by
    intro a
    have hb : ∀ b : Fin 128, outArr x (ix2 a b) = rowLse x a := fun _ => rfl
    simp only [hb, Finset.sum_const, Finset.card_univ, Fintype.card_fin]
  simp only [h, Finset.sum_nsmul]

/-- Dividing 128 copies of `S` by `1572864 = 128 * 12288` is dividing `S` by `12288`, at every extended real: at
    `⊥` both sides are `⊥`, at `⊤` both are `⊤` (the factors are positive reals), and at a real it is arithmetic. -/
theorem div_scale (S : EReal) :
    Ideal.div (0 + 128 • S) ((1572864 : ℝ) : EReal) = Ideal.div (0 + S) ((12288 : ℝ) : EReal) := by
  rw [Ideal.div_coe (by norm_num), Ideal.div_coe (by norm_num), zero_add, zero_add, EReal.nsmul_eq_mul]
  induction S using EReal.rec with
  | bot =>
    rw [show ((128 : ℕ) : EReal) = ((128 : ℝ) : EReal) from by norm_cast,
      EReal.coe_mul_bot_of_pos (by norm_num), EReal.bot_mul_coe_of_pos (by norm_num),
      EReal.bot_mul_coe_of_pos (by norm_num)]
  | coe r =>
    rw [show ((128 : ℕ) : EReal) = ((128 : ℝ) : EReal) from by norm_cast,
      ← EReal.coe_mul, ← EReal.coe_mul, ← EReal.coe_mul]
    congr 1; ring
  | top =>
    rw [show ((128 : ℕ) : EReal) = ((128 : ℝ) : EReal) from by norm_cast,
      EReal.coe_mul_top_of_pos (by norm_num), EReal.top_mul_coe_of_pos (by norm_num),
      EReal.top_mul_coe_of_pos (by norm_num)]

/-- The two means agree. -/
theorem kerResult_eq (x : SX.Idx → EReal) : kerResult x = refResult x := by
  unfold kerResult refResult
  rw [sum_outArr, zero_eq, ofBits_1572864, ofBits_12288]
  exact div_scale _

end Cert.Spec

end
-- ==== Proof.KValueI.lean ====
/-
  The value the kernel's program computes, over the extended reals.

  The body's function, read at row `p` and lane `l` of its 128 x 128 result: the query block's row `p` is contracted
  with each of the 12288 key rows over the 128 features, each product sum is divided by the temperature and
  exponentiated, the 12288 exponentials are summed along the row, the logarithm is taken, and the one value per row is
  copied to all 128 lanes. The operations between the contraction and the store are pointwise or re-index; at the
  extended reals the narrowing of the operands to sixteen bits is the identity and the contraction into a zero
  accumulator is the plain sum of products.

  The host operations after the region: the sum of the whole output array from the zero word, divided by the
  divisor word.
-/
import proofs.«117691_j85590108274881_1_alg».proof.Proof.KDataI
import proofs.«117691_j85590108274881_1_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.StableHlo.Run

set_option maxRecDepth 16384

noncomputable section

namespace Cert.KernelIdeal.HandValue

open Cert.KernelIdeal Cert.KernelIdeal.Gen
open Idealize.ShloMosaic Idealize.ShloMosaic.TcCoe Idealize.ShloMosaic.ValueIdx
open Idealize.SL.Sem Idealize.ShloMosaic.StableHlo

/-! ## The host operations after the region -/

/-- The program's result buffer after the four host operations, from any contents of the buffers: the zero word plus
    the sum of the whole output array, divided by the divisor word. -/
theorem tail_val (W : Valuation τ sig (Elt Ideal)) :
    StableHlo.after (Gen.hostOps1 (F := Ideal)) W (Proc.devRef .tc main_v2)
      = fun _ => Ideal.div (Cert.Spec.zero
            + Finset.sum (M := EReal) Finset.univ fun j : S12288x128.Idx => W (Proc.devRef .tc main_v0) j)
          (Ideal.ofBits .f32 0x49C00000#32) := by
  after_results
  funext i
  simp only [Host.divf, Host.reduceAdd, Ideal.hostReduceAdd_def]
  refine congrArg (fun z => Ideal.div z (Ideal.ofBits .f32 0x49C00000#32)) ?_
  exact Ideal.hostReduceAdd_total reducesTo_S12288x128_S_d0_1 (fun b => b.elim0) _ _ i

/-- The same with the output array's contents named. -/
theorem tail_val_of (W : Valuation τ sig (Elt Ideal)) (y : S12288x128.Idx → EReal)
    (h : W (Proc.devRef .tc main_v0) = y) :
    StableHlo.after (Gen.hostOps1 (F := Ideal)) W (Proc.devRef .tc main_v2)
      = fun _ => Ideal.div (Cert.Spec.zero + ∑ j : S12288x128.Idx, y j) (Ideal.ofBits .f32 0x49C00000#32) := by
  rw [tail_val W, h]

/-! ## Pointwise and re-indexing operations at an index -/

/-- The exponential of a vector is pointwise. -/
theorem exp_apply {s : Shape} {φ : FTy} (a : FVec Ideal s φ) (i : s.Idx) : exp a i = Ideal.exp (a i) := rfl

/-- The logarithm of a vector is pointwise. -/
theorem log_apply {s : Shape} {φ : FTy} (a : FVec Ideal s φ) (i : s.Idx) : log a i = Ideal.log (a i) := rfl

/-- A vector of 128 entries viewed as a column: entry `(i, u)` of the column is entry `i` of the vector. -/
theorem column_of_vector_apply {α : Type} (x : S128.Idx → α) (h : S128.ShapeCasts S128x1) (i : Fin 128) (u : Fin 1) :
    shapeCast S128x1 x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column copied along the lanes: entry `(p, c)` of the result is the column's entry in row `p`. -/
theorem lanes_of_column_apply {α : Type} (v : S128x1.Idx → α) (h : S128x1.Broadcasts S128x128) (p c : Fin 128) :
    broadcastTo S128x128 v h (ix2 p c) = v (ix2 p (0 : Fin 1)) := by
  refine broadcastTo_apply v h (ix2 p c) (ix2 p (0 : Fin 1)) fun ax => ?_
  match ax with
  | ⟨0, _⟩ => rfl
  | ⟨1, _⟩ => rfl

/-- The sum along the lanes of a 128 x 12288 array, at row `p`: the sum of the row's 12288 entries. -/
theorem laneSum_apply (src : FVec Ideal S128x12288 .f32) (hφ : FKind.Formats .f32)
    (hacc : (0x00000000#32 : BitVec 32) = FKind.add.neutral .f32 hφ) (p : Fin 128) :
    multiReduction (F := Ideal) .add [1] S128 src 0x00000000#32 reduces_S128x12288_S128 hφ hacc (ix1 p)
      = ∑ k : Fin 12288, src (ix2 p k) := by
  refine (Ideal.multiReduction_add_single src 0x00000000#32 reduces_S128x12288_S128 hφ hacc (ix1 p)).trans ?_
  refine Finset.sum_congr rfl fun k _ => congrArg src ?_
  funext a
  match a with
  | ⟨0, _⟩ => rfl
  | ⟨1, _⟩ => rfl

/-! ## The contraction: both operands contract their second axis and keep their first -/

/-- The left operand's row is the output's row. -/
theorem lhs_dot_0 (i : S128x12288.Idx) (q : dot_S128x128_S12288x128_S128x12288_1_1_0_0_n_n.contr.Idx) :
    (dot_S128x128_S12288x128_S128x12288_1_1_0_0_n_n.lhsIdx i q 0).val = (i 0).val := by
  unfold DotDims.lhsIdx
  rw [dif_neg (show ¬(0 : Fin S128x128.rank) ∈ dot_S128x128_S12288x128_S128x12288_1_1_0_0_n_n.lhsBatch by decide), dif_pos (show (0 : Fin S128x128.rank) ∈ dot_S128x128_S12288x128_S128x12288_1_1_0_0_n_n.lhsNonContracting by decide)]
  rfl
/-- The left operand's column is the contraction's coordinate. -/
theorem lhs_dot_1 (i : S128x12288.Idx) (q : dot_S128x128_S12288x128_S128x12288_1_1_0_0_n_n.contr.Idx) :
    (dot_S128x128_S12288x128_S128x12288_1_1_0_0_n_n.lhsIdx i q 1).val = (q ⟨0, by decide⟩).val :=
  dot_S128x128_S12288x128_S128x12288_1_1_0_0_n_n.lhsIdx_val_of_single rfl i q
/-- The right operand's row is the output's column. -/
theorem rhs_dot_0 (i : S128x12288.Idx) (q : dot_S128x128_S12288x128_S128x12288_1_1_0_0_n_n.contr.Idx) :
    (dot_S128x128_S12288x128_S128x12288_1_1_0_0_n_n.rhsIdx i q 0).val = (i 1).val := by
  unfold DotDims.rhsIdx
  rw [dif_neg (show ¬(0 : Fin S12288x128.rank) ∈ dot_S128x128_S12288x128_S128x12288_1_1_0_0_n_n.rhsBatch by decide), dif_pos (show (0 : Fin S12288x128.rank) ∈ dot_S128x128_S12288x128_S128x12288_1_1_0_0_n_n.rhsNonContracting by decide)]
  rfl
/-- The right operand's column is the contraction's coordinate. -/
theorem rhs_dot_1 (i : S128x12288.Idx) (q : dot_S128x128_S12288x128_S128x12288_1_1_0_0_n_n.contr.Idx) :
    (dot_S128x128_S12288x128_S128x12288_1_1_0_0_n_n.rhsIdx i q 1).val = (q ⟨0, by decide⟩).val :=
  dot_S128x128_S12288x128_S128x12288_1_1_0_0_n_n.rhsIdx_val_of_single rfl i q

/-- The contraction into a zero accumulator at `(p, j)`: the sum over the 128 features of the products of the left
    operand's row `p` and the right operand's row `j`. -/
theorem matmulRows_apply (a : FVec Ideal S128x128 .bf16) (b : FVec Ideal S12288x128 .bf16) (p : Fin 128) (j : Fin 12288) :
    matmul dot_S128x128_S12288x128_S128x12288_1_1_0_0_n_n none a b (constant (F := Ideal) S128x12288 .f32 0x00000000#32) (ix2 p j)
      = ∑ d : Fin 128, a (ix2 p d) * b (ix2 j d) := by
  simp only [matmul]
  rw [Ideal.matmul_constant_zero_apply, ← Equiv.sum_comp (ValueIdx.contrEquiv1 dot_S128x128_S12288x128_S128x12288_1_1_0_0_n_n 128 rfl rfl).symm]
  refine Finset.sum_congr rfl fun k _ => ?_
  have hk := ValueIdx.contrEquiv1_symm_val dot_S128x128_S12288x128_S128x12288_1_1_0_0_n_n 128 rfl rfl k
  have el : dot_S128x128_S12288x128_S128x12288_1_1_0_0_n_n.lhsIdx (ix2 p j) ((ValueIdx.contrEquiv1 dot_S128x128_S12288x128_S128x12288_1_1_0_0_n_n 128 rfl rfl).symm k) = ix2 p k := funext fun ax => Fin.ext (by
    match ax with
    | ⟨0, _⟩ => exact lhs_dot_0 _ _
    | ⟨1, _⟩ => exact (lhs_dot_1 _ _).trans hk)
  have er : dot_S128x128_S12288x128_S128x12288_1_1_0_0_n_n.rhsIdx (ix2 p j) ((ValueIdx.contrEquiv1 dot_S128x128_S12288x128_S128x12288_1_1_0_0_n_n 128 rfl rfl).symm k) = ix2 j k := funext fun ax => Fin.ext (by
    match ax with
    | ⟨0, _⟩ => exact rhs_dot_0 _ _
    | ⟨1, _⟩ => exact (rhs_dot_1 _ _).trans hk)
  rw [el, er]

/-! ## The body's function at an index -/

/-- The body's result at row `p`, lane `l`: the logarithm of the sum over the key rows `j` of the exponential of the
    scaled product sum of query row `p` and key row `j`. -/
theorem pay_apply (v0 : Vec Ideal S128x128 .f32) (v2 : Vec Ideal S12288x128 .f32) (p l : Fin 128) :
    Gen.k0_pay1 (F := Ideal) v0 v2 (ix2 p l)
      = Ideal.log (Cert.Spec.zero + ∑ j : Fin 12288,
          Ideal.exp (Ideal.div (∑ d : Fin 128, v0 (ix2 p d) * v2 (ix2 j d)) Cert.Spec.temp)) := by
  unfold Gen.k0_pay1
  refine (lanes_of_column_apply _ broadcasts_S128x1_S128x128 p l).trans ?_
  refine (congrFun (shapeCast_self _ shapeCasts_S128x1_S128x1) (ix2 p (0 : Fin 1))).trans ?_
  refine (log_apply _ _).trans (congrArg Ideal.log ?_)
  refine (column_of_vector_apply _ shapeCasts_S128_S128x1 p 0).trans ?_
  refine (laneSum_apply _ _ _ p).trans ?_
  rw [Cert.Spec.zero_eq, zero_add]
  refine Finset.sum_congr rfl fun j _ => ?_
  refine (exp_apply _ _).trans (congrArg Ideal.exp ?_)
  refine (divf_apply _ _ _).trans ?_
  refine congrArg (fun z => Ideal.div z Cert.Spec.temp) ?_
  exact (matmulRows_apply _ _ p j).trans (Finset.sum_congr rfl fun d _ => rfl)

end Cert.KernelIdeal.HandValue

end
-- ==== Proof.KFinalI.lean ====
/-
  The output array after the kernel's 96 grid points.

  Point `t` brings rows [128 t, 128 t + 128) of the input as the query block and the whole input as the key block,
  and writes the body's 128 x 128 result back to rows [128 t, 128 t + 128) of the output array. Row `p` of that
  result holds, in every lane, the logarithm of the sum over all rows `j` of the exponential of the scaled product
  sum of input rows `128 t + p` and `j`: the value `Spec.rowLse x (128 t + p)`. The 96 blocks of 128 rows tile the
  12288 rows (row `r` lies in the block of point `r / 128`), so the array ends holding `Spec.outArr x`.
-/
import proofs.«117691_j85590108274881_1_alg».proof.Proof.KDataI
import proofs.«117691_j85590108274881_1_alg».proof.Proof.KValueI
import proofs.«117691_j85590108274881_1_alg».proof.Proof.Spec
import Idealize.ShloMosaic.Lib.Pipeline.Value
import Idealize.ShloMosaic.Lib.ValueIdx

noncomputable section

namespace Cert.KernelIdeal.HandFinal

open Cert.KernelIdeal Cert.KernelIdeal.Gen
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ)

/-- The origin of a rank-2 buffer. -/
theorem origin_zero : (![0, 0] : Fin 2 → Nat) = fun _ => 0 := funext fun a => by fin_cases a <;> rfl

/-- The printed index maps, decided over the grid: the query block and the output block of point `t` are block
    `(t, 0)`, the key block is block `(0, 0)`, and there are 96 points. -/
theorem block_index : ∀ t : Fin cfg0.N, t.val < 96
    ∧ win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Every row block is some point's. -/
theorem block_onto : ∀ q : Fin 96, ∃ t : Fin cfg0.N, t.val = q.val :=
  fun q => ⟨⟨q.val, q.isLt⟩, rfl⟩

/-- The body's value from a query block that is rows `128 t + p` of `x` and a key block that is `x`: row `p` holds
    the value of row `128 t + p` in every lane. -/
theorem pay_rows (x : Cert.Spec.SX.Idx → EReal) (v0 : Vec Ideal S128x128 .f32) (v2 : Vec Ideal S12288x128 .f32)
    (r : Fin 12288) (p l : Fin 128)
    (h0 : ∀ d : Fin 128, v0 (ix2 p d) = x (ix2 r d))
    (h2 : ∀ (j : Fin 12288) (d : Fin 128), v2 (ix2 j d) = x (ix2 j d)) :
    k0_pay1 (F := Ideal) v0 v2 (ix2 p l) = Cert.Spec.rowLse x r := by
  rw [HandValue.pay_apply]
  unfold Cert.Spec.rowLse Cert.Spec.sim
  simp only [h0, h2]

/-- The query block of point `t` at row `p` is the input's row `128 t + p`. -/
theorem query_block (c : Dev nD) (t : Fin cfg0.N) (p d : Fin 128) (r : Fin 12288) (hr : r.val = 128 * t.val + p.val) :
    (Hand.iblk m c 0 t : Vec Ideal S128x128 .f32) (ix2 p d)
      = (m ((c : Thread nD τ).loc main_arg0) : S12288x128.Idx → EReal) (ix2 r d) := by
  obtain ⟨_, e0, e1, -⟩ := block_index t
  unfold Hand.iblk
  rw [View.read_apply]
  show Hand.V m c main_arg0 (((cfg0.win 0).blk t).view.emb (ix2 p d)) = Hand.V m c main_arg0 (ix2 r d)
  refine congrArg _ (funext fun a => Fin.ext ?_)
  match a with
  | ⟨0, _⟩ => show win0_0.index t (0 : Fin 2) * 128 + 1 * p.val = r.val; omega
  | ⟨1, _⟩ => show win0_0.index t (1 : Fin 2) * 128 + 1 * d.val = d.val; omega

/-- The key block of every point is the whole input. -/
theorem key_block (c : Dev nD) (t : Fin cfg0.N) (j : Fin 12288) (d : Fin 128) :
    (Hand.iblk m c 1 t : Vec Ideal S12288x128 .f32) (ix2 j d)
      = (m ((c : Thread nD τ).loc main_arg0) : S12288x128.Idx → EReal) (ix2 j d) := by
  obtain ⟨_, -, -, e0, e1, -⟩ := block_index t
  unfold Hand.iblk
  rw [View.read_apply]
  show Hand.V m c main_arg0 (((cfg0.win 1).blk t).view.emb (ix2 j d)) = Hand.V m c main_arg0 (ix2 j d)
  refine congrArg _ (funext fun a => Fin.ext ?_)
  match a with
  | ⟨0, _⟩ => show win0_1.index t (0 : Fin 2) * 12288 + 1 * j.val = j.val; omega
  | ⟨1, _⟩ => show win0_1.index t (1 : Fin 2) * 128 + 1 * d.val = d.val; omega

/-- What point `t` writes back is block `t` of `Spec.outArr x`. -/
theorem flushed_eq (c : Dev nD) (t : Fin cfg0.N) :
    (Hand.dats (F := Ideal) m 0 c).flushed 2 t
      = ((cfg0.win 2).blk t).view.read (Elt Ideal) (Cert.Spec.outArr (m ((c : Thread nD τ).loc main_arg0))) := by
  show (cfg0.win 2).cut (grid0.coords t) ((Hand.dats m 0 c).after 2 t) = _
  rw [Hand.after0_2]
  unfold Hand.out0_2
  rw [View.canon_unit_zero origin_zero]
  simp only [View.ld_unit_zero (S := S128x128) origin_zero, View.ld_unit_zero (S := S12288x128) origin_zero]
  funext y
  obtain ⟨p, l, rfl⟩ : ∃ (p l : Fin 128), y = ix2 p l := ⟨y 0, y 1, eq_ix2 y⟩
  obtain ⟨ht, -, -, -, -, e0, e1⟩ := block_index t
  have hr : 128 * t.val + p.val < 12288 := by have := p.isLt; omega
  rw [View.read_apply]
  show k0_pay1 (F := Ideal) (Hand.iblk m c 0 t) (Hand.iblk m c 1 t) (ix2 p l)
    = Cert.Spec.outArr (m ((c : Thread nD τ).loc main_arg0)) (((cfg0.win 2).blk t).view.emb (ix2 p l))
  refine (pay_rows (m ((c : Thread nD τ).loc main_arg0)) (Hand.iblk m c 0 t) (Hand.iblk m c 1 t)
    ⟨128 * t.val + p.val, hr⟩ p l (fun d => query_block m c t p d _ rfl) (fun j d => key_block m c t j d)).trans ?_
  show Cert.Spec.rowLse _ _ = Cert.Spec.rowLse _ _
  refine congrArg (Cert.Spec.rowLse _) (Fin.ext ?_)
  show 128 * t.val + p.val = win0_2.index t (0 : Fin 2) * 128 + 1 * p.val
  omega

/-- An index of the output array is in point `t`'s block iff each coordinate is in the block's range on its axis. -/
theorem mem_block (t : Fin cfg0.N) (i : S12288x128.Idx) :
    i ∈ ((cfg0.win 2).blk t).view.set ↔ ∀ a : Fin 2, win0_2.index t a * S128x128.size a ≤ (i a).val ∧ (i a).val < win0_2.index t a * S128x128.size a + S128x128.size a := by
  show i ∈ ((View.whole main_v0).slice (win0_2.rect t)).set ↔ _
  rw [View.set_slice_whole, Rect.mem_set_unit]
  exact Iff.rfl

/-- The 96 row blocks tile the output array: row `r` lies in the block of point `r / 128`. -/
theorem cover (i : S12288x128.Idx) :
    ∃ t : Fin cfg0.N, (cfg0.win 2).flush t = true ∧ i ∈ ((cfg0.win 2).blk t).view.set := by
  have hi0 : (i 0).val < 12288 := (i 0).isLt
  have hi1 : (i 1).val < 128 := (i 1).isLt
  obtain ⟨t, ht⟩ := block_onto ⟨(i 0).val / 128, by omega⟩
  have ht' : t.val = (i 0).val / 128 := ht
  obtain ⟨-, -, -, -, -, e0, e1⟩ := block_index t
  refine ⟨t, flush0_2 t, ?_⟩
  rw [mem_block]
  intro a
  match a with
  | ⟨0, _⟩ => show win0_2.index t (0 : Fin 2) * 128 ≤ (i 0).val ∧ (i 0).val < win0_2.index t (0 : Fin 2) * 128 + 128; omega
  | ⟨1, _⟩ => show win0_2.index t (1 : Fin 2) * 128 ≤ (i 1).val ∧ (i 1).val < win0_2.index t (1 : Fin 2) * 128 + 128; omega

/-- The output array after the run: row `r`'s value in every lane of row `r`. -/
theorem final_out (c : Dev nD) :
    (Hand.dats (F := Ideal) m 0 c).arrAt 2 cfg0.N = Cert.Spec.outArr (m ((c : Thread nD τ).loc main_arg0)) :=
  (Hand.dats m 0 c).arrAt_eq_of_cover 2 (Cert.Spec.outArr (m ((c : Thread nD τ).loc main_arg0)))
    (fun t _ => flushed_eq m c t) cover

end Cert.KernelIdeal.HandFinal

end
-- ==== Proof.RefValue.lean ====
/-
  The reference's value is the loss of Spec.lean.

  Read one operation at a time, the reference transposes `x`, contracts `x` with the transpose over the 128
  lanes (entry `(i, j)` is `∑ k, x (i, k) * x (j, k)`), divides every entry by the temperature, exponentiates,
  sums each row from the zero word, takes the logarithm of each row's sum, sums the 12288 logarithms from the
  zero word and divides by the word of 12288. Entry by entry these are `Spec.sim`, `Spec.rowLse` and
  `Spec.refResult`; the only work is naming the composed index functions as `ix2` and reading the sum over the
  rank-1 index set as the sum over its coordinate.
-/
import proofs.«117691_j85590108274881_1_alg».proof.Proof.Gen.ReferenceIdeal.Read
import proofs.«117691_j85590108274881_1_alg».proof.Proof.Spec
import Idealize.ShloMosaic.Lib.ValueIdx
import Idealize.ShloMosaic.Lib.ValueIdxRank1
import Idealize.ShloMosaic.PureOps.Ideal

noncomputable section

namespace Cert.RefValue

open Cert.ReferenceIdeal Cert.ReferenceIdeal.Read Idealize.ShloMosaic Idealize.ShloMosaic.ValueIdx

/-- The left operand of the contraction at entry `(a, b)`, lane `k`, is read at `(a, k)`. -/
theorem lidx_eq (a b : Fin 12288) (k : Fin 128) : lidx_main_v1 (ix2 a b) k = ix2 a k :=
  funext fun d => Fin.ext (by match d with | ⟨0, _⟩ => rfl | ⟨1, _⟩ => rfl)

/-- The right operand, read through the transpose, is read at `(b, k)`. -/
theorem ridx_eq (a b : Fin 12288) (k : Fin 128) : idx_main_v0 (ridx_main_v1 (ix2 a b) k) = ix2 b k :=
  funext fun d => Fin.ext (by match d with | ⟨0, _⟩ => rfl | ⟨1, _⟩ => rfl)

/-- Row `a`'s sum reads entry `(a, k)`. -/
theorem idx5_eq (a k : Fin 12288) : idx_main_v5 (ix1 a) k = ix2 a k :=
  funext fun d => Fin.ext (by match d with | ⟨0, _⟩ => rfl | ⟨1, _⟩ => rfl)

/-- The divided contraction at entry `(a, b)` is the scaled similarity of rows `a` and `b`. -/
theorem v3_eq (x : (⟨S12288x128, .f32⟩ : BufTy).Contents (Elt Ideal)) (a b : Fin 12288) :
    val_main_v3 (F := Ideal) x (ix2 a b) = Cert.Spec.sim x a b := by
  rw [val_main_v3_apply, val_main_v1_apply, val_main_v2_apply, val_main_cst_apply]
  simp only [val_main_v0_apply, lidx_eq, ridx_eq, Ideal.hostDivf_def, Ideal.ofBits_def]
  rfl

/-- The logarithm of row `a`'s sum of exponentials is the row's value. -/
theorem v6_eq (x : (⟨S12288x128, .f32⟩ : BufTy).Contents (Elt Ideal)) (a : Fin 12288) :
    val_main_v6 (F := Ideal) x (ix1 a) = Cert.Spec.rowLse x a := by
  rw [val_main_v6_apply, val_main_v5_apply, val_main_cst_0_apply]
  simp only [val_main_v4_apply, idx5_eq, v3_eq, Ideal.hostUnary_log_def, Ideal.hostUnary_exp_def, Ideal.ofBits_def]
  rfl

/-- The reference's result is the mean of the rows' values. -/
theorem ref_result (x : (⟨S12288x128, .f32⟩ : BufTy).Contents (Elt Ideal)) (i : S_.Idx) :
    val_main_v8 (F := Ideal) x i = Cert.Spec.refResult x := by
  rw [val_main_v8_apply, val_main_v7_apply, val_main_cst_2_apply, val_main_cst_1_apply]
  simp only [Ideal.hostDivf_def, Ideal.ofBits_def]
  have hsum : ∑ j : S12288.Idx, val_main_v6 (F := Ideal) x j = ∑ a : Fin 12288, Cert.Spec.rowLse x a := by
    rw [← Equiv.sum_comp (idxEquiv1 (n := 12288)).symm]
    exact Finset.sum_congr rfl fun a _ => v6_eq x a
  rw [hsum]
  rfl

end Cert.RefValue

end
-- ==== Proof.lean ====
/-
  The uniformity loss kernel against its jnp reference, over the extended reals.

  Both programs compute, for an input `x` of 12288 rows of 128 numbers, the mean over the rows `i` of
  `log (∑ j, exp ((∑ d, x i d * x j d) / temp))`. The kernel's program runs one pipelined region of 96 grid points —
  point `t` takes rows [128 t, 128 t + 128) as queries against the whole array as keys, one matrix product into a zero
  accumulator, the quotient by the temperature, the exponentials, a lane sum, the logarithm, and writes each row's
  value into all 128 lanes of the output block — and then takes the mean of the whole 12288 x 128 output array. The
  reference transposes, multiplies, divides, exponentiates, sums each row, takes logarithms and the mean of the 12288
  values. At the ideal instance a change of float format is the identity and the two products are the same
  contraction, so row by row the two compute the same extended real; the mean of 128 copies of every row's value over
  12288 * 128 entries is the mean of the rows' values over 12288, at every extended real (Spec.lean). The precondition
  is not needed.

  The frames: the kernel's two input windows read ONE array, so its buffer is split into two half shares at the
  region's entry and joined at its exit (KRunI.lean, KRunB.lean: the same text at the two instances); the reference's
  frame is its run with the result dropped.
-/
import proofs.«117691_j85590108274881_1_alg».proof.Defs
import proofs.«117691_j85590108274881_1_alg».proof.Proof.Gen.Kernel
import proofs.«117691_j85590108274881_1_alg».proof.Proof.Gen.KernelIdeal
import proofs.«117691_j85590108274881_1_alg».proof.Proof.Gen.ReferenceIdeal
import proofs.«117691_j85590108274881_1_alg».proof.Proof.Gen.Pre_finite_inputs
import proofs.«117691_j85590108274881_1_alg».proof.Proof.Gen.ReferenceIdeal.Run
import proofs.«117691_j85590108274881_1_alg».proof.Proof.Gen.ReferenceIdeal.Read
import proofs.«117691_j85590108274881_1_alg».proof.Proof.KRunB
import proofs.«117691_j85590108274881_1_alg».proof.Proof.KRunI
import proofs.«117691_j85590108274881_1_alg».proof.Proof.KValueI
import proofs.«117691_j85590108274881_1_alg».proof.Proof.KFinalI
import proofs.«117691_j85590108274881_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs to the end and leaves its input as launched. -/
theorem frame_k : Cert.frame_Kernel := fun m ρ _ => Cert.Kernel.Hand.frame (F := Bits) m ρ

/-- So does the idealized kernel. -/
theorem frame_ki : Cert.frame_KernelIdeal := fun m ρ _ => Cert.KernelIdeal.Hand.frame (F := Ideal) m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealized kernel's result: the mean of the output array the pipeline wrote, which holds every row's value
    in all its lanes. -/
theorem kernel_result (m : (ℓ : Loc Cert.KernelIdeal.nD Cert.KernelIdeal.τ Cert.KernelIdeal.sig) → Buf (Elt Ideal) ℓ) (c : Dev Cert.KernelIdeal.nD) :
    Cert.KernelIdeal.Hand.Vend (F := Ideal) m c (Proc.devRef .tc Cert.KernelIdeal.main_v2)
      = fun _ => Cert.Spec.kerResult (m ((c.tc : Thread Cert.KernelIdeal.nD Cert.KernelIdeal.τ).loc Cert.KernelIdeal.main_arg0)) := by
  unfold Cert.KernelIdeal.Hand.Vend
  exact Cert.KernelIdeal.HandValue.tail_val_of _ (Cert.Spec.outArr (m ((c.tc : Thread Cert.KernelIdeal.nD Cert.KernelIdeal.τ).loc Cert.KernelIdeal.main_arg0)))
    ((Cert.KernelIdeal.Hand.Vx_out m c).trans (Cert.KernelIdeal.HandFinal.final_out m c))

/-- From memories agreeing on the input both idealized programs end with the same result: the rows' mean. -/
theorem algebraic : Cert.algebraic_KernelIdeal_ReferenceIdeal := by
  intro m ρ m' ρ' _ hagree
  refine ⟨fun c _ => Cert.Spec.refResult (m ((c.tc : Thread Cert.KernelIdeal.nD Cert.KernelIdeal.τ).loc Cert.KernelIdeal.main_arg0)), ?_, ?_⟩
  · refine (θ_run Cert.KernelIdeal.defs _ _).mono (fun r h c => ⟨?_, (h c).1⟩) (Cert.KernelIdeal.Hand.run_main (F := Ideal) m ρ)
    rw [(h c).2, kernel_result]
    funext _
    exact Cert.Spec.kerResult_eq _
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v8_eq, hagree c]
    funext i
    exact Cert.RefValue.ref_result _ i

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
